-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Layer1.lean ====
/-
  The first dense layer's product, tile by tile.

  The first pallas_call multiplies the node features `x` (50000 × 512) by the weights `W1` (512 × 256) in 25 bands of
  2000 rows: at grid point `t` the body loads rows `2000·t … 2000·t + 1999` of `x` and the whole of `W1`, rounds both to
  bf16 (the identity on the extended reals), multiplies them into a zero accumulator, and stores the 2000 × 256 tile,
  which is written back to rows `2000·t …` of the result. On the extended reals a product into the zero accumulator
  is, entry by entry, the plain sum over the contraction index `k` of `x[r, k] · W1[k, q]`; the host's `dot_general`
  of the whole arrays is the same sum. Row `p` of the tile at point `t` is row `2000·t + p` of `x`, so the tile is
  the corresponding band of the whole product, and since the 25 bands cover all 50000 rows, the result array after
  the region is the whole product `x · W1` of the arrays as the region finds them.
-/
import proofs.«121987_j80788334838501_1_alg».proof.Proof.Gen.KernelIdeal.Frame
import proofs.«121987_j80788334838501_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer1

open Cert.KernelIdeal Cert.KernelIdeal.Gen
open Idealize.ShloMosaic Idealize.ShloMosaic.TcCoe Idealize.SL.Sem
open Idealize.ShloMosaic.Pipeline (Dat)

/-! ## The tile product read at an entry -/

theorem lhs_tile_0 (j : S2000x256.Idx) (q : dot_S2000x512_S512x256_S2000x256_1_0_0_1_n_n.contr.Idx) :
    (dot_S2000x512_S512x256_S2000x256_1_0_0_1_n_n.lhsIdx j q 0).val = (j 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_tile_1 (j : S2000x256.Idx) (q : dot_S2000x512_S512x256_S2000x256_1_0_0_1_n_n.contr.Idx) :
    (dot_S2000x512_S512x256_S2000x256_1_0_0_1_n_n.lhsIdx j q 1).val = (q ⟨0, by decide⟩).val :=
  dot_S2000x512_S512x256_S2000x256_1_0_0_1_n_n.lhsIdx_val_of_single rfl j q
theorem rhs_tile_0 (j : S2000x256.Idx) (q : dot_S2000x512_S512x256_S2000x256_1_0_0_1_n_n.contr.Idx) :
    (dot_S2000x512_S512x256_S2000x256_1_0_0_1_n_n.rhsIdx j q 0).val = (q ⟨0, by decide⟩).val :=
  dot_S2000x512_S512x256_S2000x256_1_0_0_1_n_n.rhsIdx_val_of_single rfl j q
theorem rhs_tile_1 (j : S2000x256.Idx) (q : dot_S2000x512_S512x256_S2000x256_1_0_0_1_n_n.contr.Idx) :
    (dot_S2000x512_S512x256_S2000x256_1_0_0_1_n_n.rhsIdx j q 1).val = (j 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Entry `(p, k)` of the band of `x` that meets entry `j = (p, q)` of the tile, and entry `(k, q)` of the weights. -/
abbrev bandIdx (j : S2000x256.Idx) (k : Fin 512) : S2000x512.Idx := fun a => match a with
  | ⟨0, _⟩ => ⟨(j 0).val, (j 0).isLt⟩
  | ⟨1, _⟩ => ⟨k.val, k.isLt⟩
abbrev weightIdx (j : S2000x256.Idx) (k : Fin 512) : S512x256.Idx := fun a => match a with
  | ⟨0, _⟩ => ⟨k.val, k.isLt⟩
  | ⟨1, _⟩ => ⟨(j 1).val, (j 1).isLt⟩

/-- The body's stored value at entry `j`: the sum over `k` of the band's entry times the weights' entry. -/
theorem tile_apply (x0 : Vec Ideal S2000x512 .f32) (x1 : Vec Ideal S512x256 .f32) (j : S2000x256.Idx) :
    k0_pay1 (F := Ideal) x0 x1 j = ∑ k : Fin 512, x0 (bandIdx j k) * x1 (weightIdx j k) := by
  unfold k0_pay1
  try simp only [shapeCast_self]
  show FloatOps.matmul (F := Ideal) (φ₁ := .f32) (φ₂ := .f32) dot_S2000x512_S512x256_S2000x256_1_0_0_1_n_n none x0 x1 (constant S2000x256 .f32 0x00000000#32) j = _
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = bandIdx j k := funext fun a => Fin.ext (by
    match a with
    | ⟨0, _⟩ => exact lhs_tile_0 _ _
    | ⟨1, _⟩ => exact (lhs_tile_1 _ _).trans hk)
  have er : dot_S2000x512_S512x256_S2000x256_1_0_0_1_n_n.rhsIdx j ((ValueIdx.contrEquiv1 dot_S2000x512_S512x256_S2000x256_1_0_0_1_n_n 512 rfl rfl).symm k) = weightIdx j k := funext fun a => Fin.ext (by
    match a with
    | ⟨0, _⟩ => exact (rhs_tile_0 _ _).trans hk
    | ⟨1, _⟩ => exact rhs_tile_1 _ _)
  rw [el, er]

/-! ## The whole product read at an entry -/

theorem lhs_whole_0 (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.lhsIdx i q 0).val = (i 0).val := by
  unfold DotDims.lhsIdx
  rw [dif_neg (show ¬(0 : Fin Cert.ReferenceIdeal.S50000x512.rank) ∈ Cert.ReferenceIdeal.dot_S50000x512_S512x256_S50000x256_1_0_0_1_n_n.lhsBatch by decide), dif_pos (show (0 : Fin Cert.ReferenceIdeal.S50000x512.rank) ∈ Cert.ReferenceIdeal.dot_S50000x512_S512x256_S50000x256_1_0_0_1_n_n.lhsNonContracting by decide)]
  rfl
theorem lhs_whole_1 (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.lhsIdx i q 1).val = (q ⟨0, by decide⟩).val :=
  Cert.ReferenceIdeal.dot_S50000x512_S512x256_S50000x256_1_0_0_1_n_n.lhsIdx_val_of_single rfl i q
theorem rhs_whole_0 (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.rhsIdx i q 0).val = (q ⟨0, by decide⟩).val :=
  Cert.ReferenceIdeal.dot_S50000x512_S512x256_S50000x256_1_0_0_1_n_n.rhsIdx_val_of_single rfl i q
theorem rhs_whole_1 (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.rhsIdx i q 1).val = (i 1).val := by
  unfold DotDims.rhsIdx
  rw [dif_neg (show ¬(1 : Fin Cert.ReferenceIdeal.S512x256.rank) ∈ Cert.ReferenceIdeal.dot_S50000x512_S512x256_S50000x256_1_0_0_1_n_n.rhsBatch by decide), dif_pos (show (1 : Fin Cert.ReferenceIdeal.S512x256.rank) ∈ Cert.ReferenceIdeal.dot_S50000x512_S512x256_S50000x256_1_0_0_1_n_n.rhsNonContracting by decide)]
  rfl

/-- Entry `(r, k)` of `x` and entry `(k, q)` of the weights, which meet in entry `i = (r, q)` of the whole product. -/
abbrev rowIdx (i : Cert.ReferenceIdeal.S50000x256.Idx) (k : Fin 512) : Cert.ReferenceIdeal.S50000x512.Idx := fun a => match a with
  | ⟨0, _⟩ => ⟨(i 0).val, (i 0).isLt⟩
  | ⟨1, _⟩ => ⟨k.val, k.isLt⟩
abbrev colIdx (i : Cert.ReferenceIdeal.S50000x256.Idx) (k : Fin 512) : Cert.ReferenceIdeal.S512x256.Idx := fun a => match a with
  | ⟨0, _⟩ => ⟨k.val, k.isLt⟩
  | ⟨1, _⟩ => ⟨(i 1).val, (i 1).isLt⟩

/-- The host's product of the whole arrays. -/
abbrev whole (X : (⟨Cert.ReferenceIdeal.S50000x512, .f32⟩ : BufTy).Contents (Elt Ideal)) (W : (⟨Cert.ReferenceIdeal.S512x256, .f32⟩ : BufTy).Contents (Elt Ideal)) :
    (⟨Cert.ReferenceIdeal.S50000x256, .f32⟩ : BufTy).Contents (Elt Ideal) :=
  Host.dotGeneral (F := Ideal) (φ₁ := .f32) (φ₂ := .f32) Cert.ReferenceIdeal.dot_S50000x512_S512x256_S50000x256_1_0_0_1_n_n none X W

/-- On the extended reals the host's product at entry `i` is the sum over `k` of row entry times column entry. -/
theorem whole_apply (X : (⟨Cert.ReferenceIdeal.S50000x512, .f32⟩ : BufTy).Contents (Elt Ideal)) (W : (⟨Cert.ReferenceIdeal.S512x256, .f32⟩ : BufTy).Contents (Elt Ideal)) (i : Cert.ReferenceIdeal.S50000x256.Idx) :
    whole X W i = ∑ k : Fin 512, X (rowIdx i k) * W (colIdx i k) := by
  unfold whole
  simp only [Host.dotGeneral]
  rw [Ideal.dotGeneral_apply, ← Equiv.sum_comp (ValueIdx.contrEquiv1 Cert.ReferenceIdeal.dot_S50000x512_S512x256_S50000x256_1_0_0_1_n_n 512 rfl rfl).symm]
  refine Finset.sum_congr rfl fun k _ => ?_
  have hk := ValueIdx.contrEquiv1_symm_val Cert.ReferenceIdeal.dot_S50000x512_S512x256_S50000x256_1_0_0_1_n_n 512 rfl rfl k
  have el : Cert.ReferenceIdeal.dot_S50000x512_S512x256_S50000x256_1_0_0_1_n_n.lhsIdx i ((ValueIdx.contrEquiv1 Cert.ReferenceIdeal.dot_S50000x512_S512x256_S50000x256_1_0_0_1_n_n 512 rfl rfl).symm k) = rowIdx i k := funext fun a => Fin.ext (by
    match a with
    | ⟨0, _⟩ => exact lhs_whole_0 _ _
    | ⟨1, _⟩ => exact (lhs_whole_1 _ _).trans hk)
  have er : Cert.ReferenceIdeal.dot_S50000x512_S512x256_S50000x256_1_0_0_1_n_n.rhsIdx i ((ValueIdx.contrEquiv1 Cert.ReferenceIdeal.dot_S50000x512_S512x256_S50000x256_1_0_0_1_n_n 512 rfl rfl).symm k) = colIdx i k := funext fun a => Fin.ext (by
    match a with
    | ⟨0, _⟩ => exact (rhs_whole_0 _ _).trans hk
    | ⟨1, _⟩ => exact rhs_whole_1 _ _)
  rw [el, er]

/-- A tile entry is an entry of the whole product as soon as the band's row is the array's row and the weights are
    the same array. -/
theorem tile_eq_whole (x0 : Vec Ideal S2000x512 .f32) (x1 : Vec Ideal S512x256 .f32)
    (X : (⟨Cert.ReferenceIdeal.S50000x512, .f32⟩ : BufTy).Contents (Elt Ideal)) (W : (⟨Cert.ReferenceIdeal.S512x256, .f32⟩ : BufTy).Contents (Elt Ideal))
    (j : S2000x256.Idx) (J : Cert.ReferenceIdeal.S50000x256.Idx)
    (hx : ∀ k : Fin 512, x0 (bandIdx j k) = X (rowIdx J k))
    (hw : ∀ k : Fin 512, x1 (weightIdx j k) = W (colIdx J k)) :
    k0_pay1 (F := Ideal) x0 x1 j = whole X W J := by
  rw [tile_apply, whole_apply]
  exact Finset.sum_congr rfl fun k _ => by rw [hx k, hw k]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the band and the output tile sit at block row `t`, block column 0; the
    weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the arrays as the region finds them. -/
abbrev product (c : Dev nD) : Cert.ReferenceIdeal.S50000x256.Idx → EReal :=
  whole (V c main_arg0) (V c main_arg2)

/-- What point `t` writes back is band `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts t
  funext j
  refine tile_eq_whole _ _ (V c main_arg0) (V c main_arg2) j (((cfg0.win 2).blk t).view.emb j) (fun k => ?_) (fun k => ?_)
  · show V c main_arg0 (((cfg0.win 0).blk t).view.emb (bandIdx j k)) = V c main_arg0 (rowIdx (((cfg0.win 2).blk t).view.emb j) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_arg2 (((cfg0.win 1).blk t).view.emb (weightIdx j k)) = V c main_arg2 (colIdx (((cfg0.win 2).blk t).view.emb j) k)
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega

/-- An index of the result array is in point `t`'s tile iff each coordinate is in the tile's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every row of the result lies in the band of the point `row / 2000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE RESULT ARRAY after the region: the whole product `x · W1` of the arrays as the region finds them. -/
theorem array_eq (c : Dev nD) : (dat0 V c).arrAt 2 cfg0.N = product V c :=
  (dat0 V c).arrAt_eq_of_cover 2 (product V c) (fun t _ => flushed_eq V c t) (cover)

end Cert.KernelIdeal.Layer1

end
-- ==== Proof.Layer2.lean ====
/-
  The second dense layer's product, tile by tile.

  The second pallas_call multiplies the hidden features `h` (50000 × 256) by the weights `W2` (256 × 128) in 25 bands of
  2000 rows: at grid point `t` the body loads rows `2000·t … 2000·t + 1999` of `h` and the whole of `W2`, rounds both to
  bf16 (the identity on the extended reals), multiplies them into a zero accumulator, and stores the 2000 × 128 tile,
  which is written back to rows `2000·t …` of the result. On the extended reals a product into the zero accumulator
  is, entry by entry, the plain sum over the contraction index `k` of `h[r, k] · W2[k, q]`; the host's `dot_general`
  of the whole arrays is the same sum. Row `p` of the tile at point `t` is row `2000·t + p` of `h`, so the tile is
  the corresponding band of the whole product, and since the 25 bands cover all 50000 rows, the result array after
  the region is the whole product `h · W2` of the arrays as the region finds them.
-/
import proofs.«121987_j80788334838501_1_alg».proof.Proof.Gen.KernelIdeal.Frame
import proofs.«121987_j80788334838501_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer2

open Cert.KernelIdeal Cert.KernelIdeal.Gen
open Idealize.ShloMosaic Idealize.ShloMosaic.TcCoe Idealize.SL.Sem
open Idealize.ShloMosaic.Pipeline (Dat)

/-! ## The tile product read at an entry -/

theorem lhs_tile_0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_tile_1 (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem rhs_tile_0 (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem rhs_tile_1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry `(p, k)` of the band of `h` that meets entry `j = (p, q)` of the tile, and entry `(k, q)` of the weights. -/
abbrev bandIdx (j : S2000x128.Idx) (k : Fin 256) : S2000x256.Idx := fun a => match a with
  | ⟨0, _⟩ => ⟨(j 0).val, (j 0).isLt⟩
  | ⟨1, _⟩ => ⟨k.val, k.isLt⟩
abbrev weightIdx (j : S2000x128.Idx) (k : Fin 256) : S256x128.Idx := fun a => match a with
  | ⟨0, _⟩ => ⟨k.val, k.isLt⟩
  | ⟨1, _⟩ => ⟨(j 1).val, (j 1).isLt⟩

/-- The body's stored value at entry `j`: the sum over `k` of the band's entry times the weights' entry. -/
theorem tile_apply (x0 : Vec Ideal S2000x256 .f32) (x1 : Vec Ideal S256x128 .f32) (j : S2000x128.Idx) :
    k1_pay1 (F := Ideal) x0 x1 j = ∑ k : Fin 256, x0 (bandIdx j k) * x1 (weightIdx j k) := by
  unfold k1_pay1
  try simp only [shapeCast_self]
  show FloatOps.matmul (F := Ideal) (φ₁ := .f32) (φ₂ := .f32) dot_S2000x256_S256x128_S2000x128_1_0_0_1_n_n none x0 x1 (constant S2000x128 .f32 0x00000000#32) j = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = bandIdx j k := funext fun a => Fin.ext (by
    match a with
    | ⟨0, _⟩ => exact lhs_tile_0 _ _
    | ⟨1, _⟩ => exact (lhs_tile_1 _ _).trans hk)
  have er : dot_S2000x256_S256x128_S2000x128_1_0_0_1_n_n.rhsIdx j ((ValueIdx.contrEquiv1 dot_S2000x256_S256x128_S2000x128_1_0_0_1_n_n 256 rfl rfl).symm k) = weightIdx j k := funext fun a => Fin.ext (by
    match a with
    | ⟨0, _⟩ => exact (rhs_tile_0 _ _).trans hk
    | ⟨1, _⟩ => exact rhs_tile_1 _ _)
  rw [el, er]

/-! ## The whole product read at an entry -/

theorem lhs_whole_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
theorem lhs_whole_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem rhs_whole_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem rhs_whole_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- Entry `(r, k)` of `h` and entry `(k, q)` of the weights, which meet in entry `i = (r, q)` of the whole product. -/
abbrev rowIdx (i : Cert.ReferenceIdeal.S50000x128.Idx) (k : Fin 256) : Cert.ReferenceIdeal.S50000x256.Idx := fun a => match a with
  | ⟨0, _⟩ => ⟨(i 0).val, (i 0).isLt⟩
  | ⟨1, _⟩ => ⟨k.val, k.isLt⟩
abbrev colIdx (i : Cert.ReferenceIdeal.S50000x128.Idx) (k : Fin 256) : Cert.ReferenceIdeal.S256x128.Idx := fun a => match a with
  | ⟨0, _⟩ => ⟨k.val, k.isLt⟩
  | ⟨1, _⟩ => ⟨(i 1).val, (i 1).isLt⟩

/-- The host's product of the whole arrays. -/
abbrev whole (X : (⟨Cert.ReferenceIdeal.S50000x256, .f32⟩ : BufTy).Contents (Elt Ideal)) (W : (⟨Cert.ReferenceIdeal.S256x128, .f32⟩ : BufTy).Contents (Elt Ideal)) :
    (⟨Cert.ReferenceIdeal.S50000x128, .f32⟩ : BufTy).Contents (Elt Ideal) :=
  Host.dotGeneral (F := Ideal) (φ₁ := .f32) (φ₂ := .f32) Cert.ReferenceIdeal.dot_S50000x256_S256x128_S50000x128_1_0_0_1_n_n none X W

/-- On the extended reals the host's product at entry `i` is the sum over `k` of row entry times column entry. -/
theorem whole_apply (X : (⟨Cert.ReferenceIdeal.S50000x256, .f32⟩ : BufTy).Contents (Elt Ideal)) (W : (⟨Cert.ReferenceIdeal.S256x128, .f32⟩ : BufTy).Contents (Elt Ideal)) (i : Cert.ReferenceIdeal.S50000x128.Idx) :
    whole X W i = ∑ k : Fin 256, X (rowIdx i k) * W (colIdx i k) := by
  unfold whole
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = rowIdx i k := funext fun a => Fin.ext (by
    match a with
    | ⟨0, _⟩ => exact lhs_whole_0 _ _
    | ⟨1, _⟩ => exact (lhs_whole_1 _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = colIdx i k := funext fun a => Fin.ext (by
    match a with
    | ⟨0, _⟩ => exact (rhs_whole_0 _ _).trans hk
    | ⟨1, _⟩ => exact rhs_whole_1 _ _)
  rw [el, er]

/-- A tile entry is an entry of the whole product as soon as the band's row is the array's row and the weights are
    the same array. -/
theorem tile_eq_whole (x0 : Vec Ideal S2000x256 .f32) (x1 : Vec Ideal S256x128 .f32)
    (X : (⟨Cert.ReferenceIdeal.S50000x256, .f32⟩ : BufTy).Contents (Elt Ideal)) (W : (⟨Cert.ReferenceIdeal.S256x128, .f32⟩ : BufTy).Contents (Elt Ideal))
    (j : S2000x128.Idx) (J : Cert.ReferenceIdeal.S50000x128.Idx)
    (hx : ∀ k : Fin 256, x0 (bandIdx j k) = X (rowIdx J k))
    (hw : ∀ k : Fin 256, x1 (weightIdx j k) = W (colIdx J k)) :
    k1_pay1 (F := Ideal) x0 x1 j = whole X W J := by
  rw [tile_apply, whole_apply]
  exact Finset.sum_congr rfl fun k _ => by rw [hx k, hw k]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the band and the output tile sit at block row `t`, block column 0; the
    weights at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole product of the arrays as the region finds them. -/
abbrev product (c : Dev nD) : Cert.ReferenceIdeal.S50000x128.Idx → EReal :=
  whole (V c main_v47) (V c main_arg4)

/-- What point `t` writes back is band `t` of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x128) hz]
  obtain ⟨e0, e1, e2, e3, e4, e5⟩ := idx_facts t
  funext j
  refine tile_eq_whole _ _ (V c main_v47) (V c main_arg4) j (((cfg1.win 2).blk t).view.emb j) (fun k => ?_) (fun k => ?_)
  · show V c main_v47 (((cfg1.win 0).blk t).view.emb (bandIdx j k)) = V c main_v47 (rowIdx (((cfg1.win 2).blk t).view.emb j) k)
    refine congrArg (V c main_v47) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  · show V c main_arg4 (((cfg1.win 1).blk t).view.emb (weightIdx j k)) = V c main_arg4 (colIdx (((cfg1.win 2).blk t).view.emb j) k)
    refine congrArg (V c main_arg4) (funext fun a => Fin.ext ?_)
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega

/-- An index of the result array is in point `t`'s tile iff each coordinate is in the tile's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- Every row of the result lies in the band of the point `row / 2000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e0, e1, e2, e3, e4, e5⟩ := idx_facts t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE RESULT ARRAY after the region: the whole product `h · W2` of the arrays as the region finds them. -/
theorem array_eq (c : Dev nD) : (dat1 V c).arrAt 2 cfg1.N = product V c :=
  (dat1 V c).arrAt_eq_of_cover 2 (product V c) (fun t _ => flushed_eq V c t) (cover)

end Cert.KernelIdeal.Layer2

end
-- ==== Proof.Chain.lean ====
/-
  The graph convolution around the two products.

  Both programs compute the same thing around their dense products. From the edge list they build the source and
  target index vectors with a self-loop appended for every node, count each node's in-degree by a scatter-add of ones,
  take `deg^(-1/2)` where the degree is positive and 0 elsewhere, and form each edge's weight as the product of that
  number at its two ends. A layer then multiplies the features by the layer's weights, gathers the product's rows at the
  edges' sources, scales each gathered row by the edge weight, scatter-adds the rows at the edges' targets and adds the bias;
  between the two layers a rectifier is applied. The only difference between the programs is WHO computes the two dense
  products: the host's `dot_general` in the reference, a pallas_call in the kernel program. So once each
  pallas_call's result array is known to be the `dot_general` of its two operand arrays (`h30`, `h48`: true on the
  extended reals, and taken here as hypotheses so that the comparison runs for any float family, where every operation is
  an uninterpreted symbol), the kernel program's result, read back through its host stretches from the last boundary to the
  launch memory, is letter for letter the reference's composed term.
-/
import proofs.«121987_j80788334838501_1_alg».proof.Proof.Gen.KernelIdeal.Frame
import proofs.«121987_j80788334838501_1_alg».proof.Proof.ReferenceRun
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 40000000 in
/-- The kernel program's result buffer at the last boundary is the reference's composed term of arguments that agree,
    given that each pallas_call leaves the host's product of its operand arrays in its result array. -/
theorem result_eq
    (m' : (ℓ : Loc Cert.ReferenceIdeal.nD Cert.ReferenceIdeal.τ Cert.ReferenceIdeal.sig) → Buf (Elt F) ℓ) (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5))
    (h30 : W4 m ρ c (Proc.devRef .tc main_v30)
      = Host.dotGeneral (F := F) (φ₁ := .f32) (φ₂ := .f32) Cert.ReferenceIdeal.dot_S50000x512_S512x256_S50000x256_1_0_0_1_n_n none (W3 m ρ c (Proc.devRef .tc main_arg0)) (W3 m ρ c (Proc.devRef .tc main_arg2)))
    (h48 : W7 m ρ c (Proc.devRef .tc main_v48)
      = Host.dotGeneral (F := F) (φ₁ := .f32) (φ₂ := .f32) Cert.ReferenceIdeal.dot_S50000x256_S256x128_S50000x128_1_0_0_1_n_n none (W6 m ρ c (Proc.devRef .tc main_v47)) (W6 m ρ c (Proc.devRef .tc main_arg4))) :
    W8 m ρ c (Proc.devRef .tc main_v64) = Cert.ReferenceIdeal.ValueP.res_main_v64 m' c := by
  obtain ⟨a0, a1, a2, a3, a4, a5⟩ := hagree
  -- the last host stretch, from the second region's exit
  show StableHlo.after hostOps2 (W7 m ρ c) (Proc.devRef .tc main_v64) = _
  after_results_simp
  rw [h48, W7_of_ne m ρ c main_v3 (by decide), W7_of_ne m ρ c main_v6 (by decide), W7_of_ne m ρ c main_v29 (by decide),
    W7_of_ne m ρ c main_arg5 (by decide)]
  -- the rectifier's and the first layer's host stretches, from the first region's exit
  simp only [W6, W5]
  after_results_simp
  rw [h30, W4_of_ne m ρ c main_v3 (by decide), W4_of_ne m ρ c main_v6 (by decide), W4_of_ne m ρ c main_v29 (by decide),
    W4_of_ne m ρ c main_arg3 (by decide), W4_of_ne m ρ c main_arg4 (by decide), W4_of_ne m ρ c main_arg5 (by decide)]
  -- the normalisation's host stretches, from the launch memory
  simp only [W3, W2, W1]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  unfold Cert.ReferenceIdeal.ValueP.res_main_v64
  rw [a0, a1, a2, a3, a4, a5]
  rfl

end Cert.KernelIdeal.Chain

end
-- ==== Proof.lean ====
/-
  A two-layer graph convolution whose dense products run as tiled TPU kernels, against the same network with the
  products computed by the host.

  Both programs normalise the graph the same way (self-loops appended, in-degrees counted by a scatter-add, each edge
  weighted by `deg^(-1/2)` at its two ends, 0 where the degree is not positive), and both layers gather the rows of
  `features · weights` at the edges' sources, scale them by the edge weights, scatter-add them at the edges' targets and add
  the bias, with a rectifier between the layers. They differ only in the two products `x · W1` and `h · W2`: the reference
  takes the host's `dot_general`; the kernel program runs a pallas_call that walks the 50000 rows in 25 bands of 2000,
  rounds the band and the weights to bf16 and multiplies them into a zero accumulator.

  On the extended reals rounding is the identity and both products are, entry by entry, the plain sum over the contraction
  index of the operands' products; a band's rows are the array's rows, and the 25 bands cover the array. So each
  pallas_call leaves the host's product of its operand arrays in its result array (`Layer1.array_eq`, `Layer2.array_eq`),
  and the rest of the two programs is the same chain of host operations applied to equal values (`Chain.result_eq`). No
  law of arithmetic is used beyond reindexing a finite sum, so the precondition that the inputs are finite is never
  opened. The idealization rewrote nothing, so `preserves` is trivial; the frames of the two kernel programs are the
  generated ones, and the reference's frame is its run with the result dropped.
-/
import proofs.«121987_j80788334838501_1_alg».proof.Defs
import proofs.«121987_j80788334838501_1_alg».proof.Proof.Gen.Kernel
import proofs.«121987_j80788334838501_1_alg».proof.Proof.Gen.Kernel.Frame
import proofs.«121987_j80788334838501_1_alg».proof.Proof.Gen.KernelIdeal
import proofs.«121987_j80788334838501_1_alg».proof.Proof.Gen.KernelIdeal.Frame
import proofs.«121987_j80788334838501_1_alg».proof.Proof.Gen.ReferenceIdeal
import proofs.«121987_j80788334838501_1_alg».proof.Proof.Gen.Pre_finite_inputs
import proofs.«121987_j80788334838501_1_alg».proof.Proof.ReferenceRun
import proofs.«121987_j80788334838501_1_alg».proof.Proof.KernelRun
import proofs.«121987_j80788334838501_1_alg».proof.Proof.Layer1
import proofs.«121987_j80788334838501_1_alg».proof.Proof.Layer2
import proofs.«121987_j80788334838501_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

section Products

open Cert.KernelIdeal Cert.KernelIdeal.Gen

variable (m : (ℓ : Loc nD τ sig) → Buf (Elt Ideal) ℓ) (ρ : Dev nD → PrngReg)

/-- After the first region its result array holds the host's product of `x` and `W1` as the region finds them. -/
theorem first_product (c : Dev nD) :
    W4 m ρ c (Proc.devRef .tc main_v30)
      = Host.dotGeneral (F := Ideal) (φ₁ := .f32) (φ₂ := .f32) Cert.ReferenceIdeal.dot_S50000x512_S512x256_S50000x256_1_0_0_1_n_n none (W3 m ρ c (Proc.devRef .tc main_arg0)) (W3 m ρ c (Proc.devRef .tc main_arg2)) :=
  (W4_arr m ρ c 2).trans (Cert.KernelIdeal.Layer1.array_eq (V3 m ρ) c)

/-- After the second region its result array holds the host's product of the rectified first layer and `W2`. -/
theorem second_product (c : Dev nD) :
    W7 m ρ c (Proc.devRef .tc main_v48)
      = Host.dotGeneral (F := Ideal) (φ₁ := .f32) (φ₂ := .f32) Cert.ReferenceIdeal.dot_S50000x256_S256x128_S50000x128_1_0_0_1_n_n none (W6 m ρ c (Proc.devRef .tc main_v47)) (W6 m ρ c (Proc.devRef .tc main_arg4)) :=
  (W7_arr m ρ c 2).trans (Cert.KernelIdeal.Layer2.array_eq (V6 m ρ) c)

end Products

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Run from memories that agree on the arguments, the two idealized programs end with the same result array: the kernel
    program's result at the last boundary's contents, which is the reference's composed term. -/
theorem algebraic : Cert.algebraic_KernelIdeal_ReferenceIdeal := by
  intro m ρ m' ρ' _ hagree
  refine ⟨fun c => Cert.KernelIdeal.Gen.W8 (F := Ideal) m ρ c (Proc.devRef .tc Cert.KernelIdeal.main_v64),
    Cert.KernelIdeal.Whole.run_named m ρ, ?_⟩
  refine (θ_run Cert.ReferenceIdeal.defs _ _).mono (fun _ h c => ⟨(h c).1.trans ?_, (h c).2⟩)
    (Cert.ReferenceIdeal.ValueP.run (F := Ideal) m' ρ')
  exact (Cert.KernelIdeal.Chain.result_eq m ρ m' c (hagree c) (first_product m ρ c) (second_product m ρ c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
